-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x3x200x200 : Shape := ⟨5, ![16, 8, 3, 200, 200]⟩
abbrev S16x8x3 : Shape := ⟨3, ![16, 8, 3]⟩
abbrev S200x200x3 : Shape := ⟨3, ![200, 200, 3]⟩
abbrev S_ : Shape := ⟨0, ![]⟩

class Facts : Prop where
  bcast_S_S16x8x3x200x200 : S_.BroadcastsInDim S16x8x3x200x200 (![] : Fin 0 → Fin S16x8x3x200x200.rank)
  reducesTo_S16x8x3x200x200_S_d0_1_2_3_4 : S16x8x3x200x200.ReducesTo [0, 1, 2, 3, 4] S_
  h_S_ : 0 < S_.numel
  bcast_S_S16x8x3 : S_.BroadcastsInDim S16x8x3 (![] : Fin 0 → Fin S16x8x3.rank)
  reducesTo_S16x8x3_S_d0_1_2 : S16x8x3.ReducesTo [0, 1, 2] S_
  bcast_S_S200x200x3 : S_.BroadcastsInDim S200x200x3 (![] : Fin 0 → Fin S200x200x3.rank)
  reducesTo_S200x200x3_S_d0_1_2 : S200x200x3.ReducesTo [0, 1, 2] S_

variable [Facts]

def fn {F : FTy → Type} [FloatOps F] (main_arg0 : FVec F S16x8x3x200x200 .f32) (main_arg1 : FVec F S16x8x3 .f32) (main_arg2 : FVec F S200x200x3 .f32) : IVec S_ 1 :=
  let main_v0 : FVec F S16x8x3x200x200 .f32 := Host.absf main_arg0
  let main_cst : FVec F S_ .f32 := constant S_ .f32 0x7F800000#32
  let main_v1 : FVec F S16x8x3x200x200 .f32 := broadcastInDim S16x8x3x200x200 ![] bcast_S_S16x8x3x200x200 main_cst
  let main_v2 : IVec S16x8x3x200x200 1 := cmpf .olt main_v0 main_v1
  let main_c : IVec S_ 1 := constantI S_ 1 1#1
  let main_v3 : IVec S_ 1 := (fun x v => Host.reduce IntOp.andi x v reducesTo_S16x8x3x200x200_S_d0_1_2_3_4 h_S_) main_v2 main_c
  let main_v4 : FVec F S16x8x3 .f32 := Host.absf main_arg1
  let main_cst_0 : FVec F S_ .f32 := constant S_ .f32 0x7F800000#32
  let main_v5 : FVec F S16x8x3 .f32 := broadcastInDim S16x8x3 ![] bcast_S_S16x8x3 main_cst_0
  let main_v6 : IVec S16x8x3 1 := cmpf .olt main_v4 main_v5
  let main_c_1 : IVec S_ 1 := constantI S_ 1 1#1
  let main_v7 : IVec S_ 1 := (fun x v => Host.reduce IntOp.andi x v reducesTo_S16x8x3_S_d0_1_2 h_S_) main_v6 main_c_1
  let main_v8 : IVec S_ 1 := andi main_v3 main_v7
  let main_v9 : FVec F S200x200x3 .f32 := Host.absf main_arg2
  let main_cst_2 : FVec F S_ .f32 := constant S_ .f32 0x7F800000#32
  let main_v10 : FVec F S200x200x3 .f32 := broadcastInDim S200x200x3 ![] bcast_S_S200x200x3 main_cst_2
  let main_v11 : IVec S200x200x3 1 := cmpf .olt main_v9 main_v10
  let main_c_3 : IVec S_ 1 := constantI S_ 1 1#1
  let main_v12 : IVec S_ 1 := (fun x v => Host.reduce IntOp.andi x v reducesTo_S200x200x3_S_d0_1_2 h_S_) main_v11 main_c_3
  let main_v13 : IVec S_ 1 := andi main_v8 main_v12
  main_v13
-- ==== Kernel.lean ====
abbrev S16x8x3x200x200 : Shape := ⟨5, ![16, 8, 3, 200, 200]⟩
abbrev S16x8x3 : Shape := ⟨3, ![16, 8, 3]⟩
abbrev S200x200x3 : Shape := ⟨3, ![200, 200, 3]⟩
abbrev S3x200x200 : Shape := ⟨3, ![3, 200, 200]⟩
abbrev S4x8x128 : Shape := ⟨3, ![4, 8, 128]⟩
abbrev S4x8x3x200x200 : Shape := ⟨5, ![4, 8, 3, 200, 200]⟩
abbrev S4x8x3 : Shape := ⟨3, ![4, 8, 3]⟩
abbrev S1x8x128 : Shape := ⟨3, ![1, 8, 128]⟩
abbrev S8x200x200 : Shape := ⟨3, ![8, 200, 200]⟩
abbrev S1x8x3 : Shape := ⟨3, ![1, 8, 3]⟩
abbrev S8x3 : Shape := ⟨2, ![8, 3]⟩
abbrev S8x1 : Shape := ⟨2, ![8, 1]⟩
abbrev S8 : Shape := ⟨1, ![8]⟩
abbrev S8x1x1 : Shape := ⟨3, ![8, 1, 1]⟩
abbrev S1x200x200 : Shape := ⟨3, ![1, 200, 200]⟩
abbrev S200x200 : Shape := ⟨2, ![200, 200]⟩
abbrev S1x8x3x200x200 : Shape := ⟨5, ![1, 8, 3, 200, 200]⟩
abbrev S8x3x200x200 : Shape := ⟨4, ![8, 3, 200, 200]⟩
abbrev S8x1x200x200 : Shape := ⟨4, ![8, 1, 200, 200]⟩
abbrev S1x8x200x200 : Shape := ⟨4, ![1, 8, 200, 200]⟩
abbrev S1 : Shape := ⟨1, ![1]⟩
abbrev S1x1x1x1 : Shape := ⟨4, ![1, 1, 1, 1]⟩
abbrev S8x128 : Shape := ⟨2, ![8, 128]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S16x8x3x200x200, .f32⟩
  | .hbm, ⟨1, _⟩ => ⟨S16x8x3, .f32⟩
  | .hbm, ⟨2, _⟩ => ⟨S200x200x3, .f32⟩
  | .hbm, ⟨3, _⟩ => ⟨S3x200x200, .f32⟩
  | .hbm, ⟨4, _⟩ => ⟨S4x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S4x8x3x200x200, .f32⟩
  | .local _ .vmem, ⟨1, _⟩ => ⟨S4x8x3x200x200, .f32⟩
  | .local _ .vmem, ⟨2, _⟩ => ⟨S4x8x3, .f32⟩
  | .local _ .vmem, ⟨3, _⟩ => ⟨S4x8x3, .f32⟩
  | .local _ .vmem, ⟨4, _⟩ => ⟨S3x200x200, .f32⟩
  | .local _ .vmem, ⟨5, _⟩ => ⟨S1x8x128, .f32⟩
  | .local _ .vmem, ⟨6, _⟩ => ⟨S1x8x128, .f32⟩
  | _, _ => ⟨S16x8x3x200x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x8x3x200x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x200x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S200x200x3_S3x200x200_2_0_1 : S200x200x3.Transposes [2, 0, 1] S3x200x200
  inb_S3x200x200_S3x200x200_0_0_0 : ∀ a, (![0, 0, 0] : Fin 3 → Nat) a + S3x200x200.size a ≤ S3x200x200.size a
  h_S3x200x200 : 0 < S3x200x200.numel
  shapeCasts_S3x200x200_S3x200x200 : S3x200x200.ShapeCasts S3x200x200
  inb_S4x8x3_S4x8x3_0_0_0 : ∀ a, (![0, 0, 0] : Fin 3 → Nat) a + S4x8x3.size a ≤ S4x8x3.size a
  h_S4x8x3 : 0 < S4x8x3.numel
  slices_S4x8x3_o0_0_0_S1x8x3 : S4x8x3.Slices ![0, 0, 0] S1x8x3
  shapeCasts_S1x8x3_S8x3 : S1x8x3.ShapeCasts S8x3
  slices_S8x3_o0_0_S8x1 : S8x3.Slices ![0, 0] S8x1
  shapeCasts_S8x1_S8 : S8x1.ShapeCasts S8
  shapeCasts_S8_S8x1x1 : S8.ShapeCasts S8x1x1
  slices_S3x200x200_o0_0_0_S1x200x200 : S3x200x200.Slices ![0, 0, 0] S1x200x200
  shapeCasts_S1x200x200_S200x200 : S1x200x200.ShapeCasts S200x200
  shapeCasts_S200x200_S1x200x200 : S200x200.ShapeCasts S1x200x200
  broadcasts_S8x1x1_S8x200x200 : S8x1x1.Broadcasts S8x200x200
  broadcasts_S1x200x200_S8x200x200 : S1x200x200.Broadcasts S8x200x200
  slices_S8x3_o0_1_S8x1 : S8x3.Slices ![0, 1] S8x1
  slices_S3x200x200_o1_0_0_S1x200x200 : S3x200x200.Slices ![1, 0, 0] S1x200x200
  slices_S8x3_o0_2_S8x1 : S8x3.Slices ![0, 2] S8x1
  slices_S3x200x200_o2_0_0_S1x200x200 : S3x200x200.Slices ![2, 0, 0] S1x200x200
  inb_S4x8x3x200x200_S1x8x3x200x200_0_0_0_0_0 : ∀ a, (![0, 0, 0, 0, 0] : Fin 5 → Nat) a + S1x8x3x200x200.size a ≤ S4x8x3x200x200.size a
  h_S1x8x3x200x200 : 0 < S1x8x3x200x200.numel
  shapeCasts_S1x8x3x200x200_S8x3x200x200 : S1x8x3x200x200.ShapeCasts S8x3x200x200
  slices_S8x3x200x200_o0_0_0_0_S8x1x200x200 : S8x3x200x200.Slices ![0, 0, 0, 0] S8x1x200x200
  shapeCasts_S8x1x200x200_S8x200x200 : S8x1x200x200.ShapeCasts S8x200x200
  slices_S8x3x200x200_o0_1_0_0_S8x1x200x200 : S8x3x200x200.Slices ![0, 1, 0, 0] S8x1x200x200
  slices_S8x3x200x200_o0_2_0_0_S8x1x200x200 : S8x3x200x200.Slices ![0, 2, 0, 0] S8x1x200x200
  slices_S4x8x3_o1_0_0_S1x8x3 : S4x8x3.Slices ![1, 0, 0] S1x8x3
  inb_S4x8x3x200x200_S1x8x3x200x200_1_0_0_0_0 : ∀ a, (![1, 0, 0, 0, 0] : Fin 5 → Nat) a + S1x8x3x200x200.size a ≤ S4x8x3x200x200.size a
  slices_S4x8x3_o2_0_0_S1x8x3 : S4x8x3.Slices ![2, 0, 0] S1x8x3
  inb_S4x8x3x200x200_S1x8x3x200x200_2_0_0_0_0 : ∀ a, (![2, 0, 0, 0, 0] : Fin 5 → Nat) a + S1x8x3x200x200.size a ≤ S4x8x3x200x200.size a
  slices_S4x8x3_o3_0_0_S1x8x3 : S4x8x3.Slices ![3, 0, 0] S1x8x3
  inb_S4x8x3x200x200_S1x8x3x200x200_3_0_0_0_0 : ∀ a, (![3, 0, 0, 0, 0] : Fin 5 → Nat) a + S1x8x3x200x200.size a ≤ S4x8x3x200x200.size a
  shapeCasts_S8x200x200_S1x8x200x200 : S8x200x200.ShapeCasts S1x8x200x200
  reduces_S1x8x200x200_S1 : S1x8x200x200.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  iota_S8x128_d0_w32 : S8x128.Iotas .tc 32 [0]
  iota_S8x128_d1_w32 : S8x128.Iotas .tc 32 [1]
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S4x8x128_S_d0_1_2 : S4x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x3x200x200.size a ≤ S16x8x3x200x200.size a
  hwx0_0 : ∀ i : grid0.Coords, EltTy.bits .f32 = 32 ∨ (Rect.block (s := S16x8x3x200x200) S4x8x3x200x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x8x3.size a ≤ S16x8x3.size a
  hwx0_1 : ∀ i : grid0.Coords, EltTy.bits .f32 = 32 ∨ (Rect.block (s := S16x8x3) S4x8x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x200x200.size a ≤ S3x200x200.size a
  hwx0_2 : ∀ i : grid0.Coords, EltTy.bits .f32 = 32 ∨ (Rect.block (s := S3x200x200) S3x200x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S4x8x128.size a
  hwx0_3 : ∀ i : grid0.Coords, EltTy.bits .f32 = 32 ∨ (Rect.block (s := S4x8x128) S1x8x128.size (cc0_transform_3 i) (hinb0_3 i)).WholeWords (EltTy.packing .f32)

variable [Facts₀]

abbrev win0_0 : Pipeline.Window sig grid0 :=
  Pipeline.Window.ofSpec (Memref.whole main_arg0) S4x8x3x200x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x8x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x200x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8x3x200x200 : Shape := ⟨5, ![16, 8, 3, 200, 200]⟩
abbrev S16x8x3 : Shape := ⟨3, ![16, 8, 3]⟩
abbrev S200x200x3 : Shape := ⟨3, ![200, 200, 3]⟩
abbrev S16x8x200x200 : Shape := ⟨4, ![16, 8, 200, 200]⟩
abbrev S_ : Shape := ⟨0, ![]⟩
abbrev S16x8x1x200x200 : Shape := ⟨5, ![16, 8, 1, 200, 200]⟩
abbrev S16x3x200x200 : Shape := ⟨4, ![16, 3, 200, 200]⟩

abbrev nBuf : Space → Nat
  | .hbm => 18
  | .vmem => 0
  | .smem => 0
  | _ => 0

abbrev bufTy : (tb : Table) → Fin (tcTables nBuf tb) → BufTy
  | .hbm, ⟨0, _⟩ => ⟨S16x8x3x200x200, .f32⟩
  | .hbm, ⟨1, _⟩ => ⟨S16x8x3, .f32⟩
  | .hbm, ⟨2, _⟩ => ⟨S200x200x3, .f32⟩
  | .hbm, ⟨3, _⟩ => ⟨S16x8x200x200, .f32⟩
  | .hbm, ⟨4, _⟩ => ⟨S_, .f32⟩
  | .hbm, ⟨5, _⟩ => ⟨S16x8x200x200, .f32⟩
  | .hbm, ⟨6, _⟩ => ⟨S16x8x200x200, .f32⟩
  | .hbm, ⟨7, _⟩ => ⟨S16x8x1x200x200, .f32⟩
  | .hbm, ⟨8, _⟩ => ⟨S16x8x3x200x200, .f32⟩
  | .hbm, ⟨9, _⟩ => ⟨S16x8x3x200x200, .f32⟩
  | .hbm, ⟨10, _⟩ => ⟨S16x8x3x200x200, .f32⟩
  | .hbm, ⟨11, _⟩ => ⟨S16x8x3x200x200, .f32⟩
  | .hbm, ⟨12, _⟩ => ⟨S_, .f32⟩
  | .hbm, ⟨13, _⟩ => ⟨S16x3x200x200, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S16x8x3x200x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S16x8x200x200 : S_.BroadcastsInDim S16x8x200x200 (![] : Fin 0 → Fin S16x8x200x200.rank)
  bcast_S16x8x200x200_S16x8x1x200x200_0_1_3_4 : S16x8x200x200.BroadcastsInDim S16x8x1x200x200 (![0, 1, 3, 4] : Fin 4 → Fin S16x8x1x200x200.rank)
  bcast_S16x8x1x200x200_S16x8x3x200x200_0_1_2_3_4 : S16x8x1x200x200.BroadcastsInDim S16x8x3x200x200 (![0, 1, 2, 3, 4] : Fin 5 → Fin S16x8x3x200x200.rank)
  reducesTo_S16x8x3x200x200_S16x3x200x200_d1 : S16x8x3x200x200.ReducesTo [1] S16x3x200x200
  h_S_ : 0 < S_.numel
  reducesTo_S16x3x200x200_S_d0_1_2_3 : S16x3x200x200.ReducesTo [0, 1, 2, 3] S_
  dot_S16x8x3_S200x200x3_S16x8x200x200_2_2_01_01_n_n_wf : DotDims.WF S16x8x3 S200x200x3 S16x8x200x200 [2] [2] [0, 1] [0, 1] [] []

variable [Facts₀]

def dot_S16x8x3_S200x200x3_S16x8x200x200_2_2_01_01_n_n : DotDims S16x8x3 S200x200x3 S16x8x200x200 where
  lhsContracting := [2]
  rhsContracting := [2]
  lhsNonContracting := [0, 1]
  rhsNonContracting := [0, 1]
  lhsBatch := []
  rhsBatch := []
  wf := dot_S16x8x3_S200x200x3_S16x8x200x200_2_2_01_01_n_n_wf

class Facts : Prop extends Facts₀ where

variable [Facts]
-- ==== Proof.LibSums.lean ====
/-
  Two general facts about finite sums over `Fin`: a sum over `Fin N` of a function that vanishes from `n` on is
  the sum of its restriction to `Fin n`; and a sum over `Fin (B * S)` is the sum over `B` consecutive blocks of
  `S` terms.
-/
import Mathlib.Algebra.BigOperators.Fin
import Mathlib.Data.Fintype.BigOperators
import Mathlib.Data.Fin.SuccPred
import Mathlib.Logic.Equiv.Fin.Basic

namespace Cert.LibSums

/-- A function on `Fin N` that is `f` below `n` and zero from `n` on sums to the sum of `f`. -/
theorem sum_dite_lt {M : Type*} [AddCommMonoid M] {n N : ℕ} (h : n ≤ N) (f : Fin n → M) :
    ∑ k : Fin N, (if hk : k.val < n then f ⟨k.val, hk⟩ else 0) = ∑ k : Fin n, f k := by
  -- The inclusion `Fin n → Fin N` is injective, the summand vanishes off its range, and on its range the
  -- summand is `f`.
  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

/-- A sum over `B * S` indices, block by block. -/
theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by
  -- The double sum is a sum over pairs `(b, s)`; the bijection `(b, s) ↦ s + S * b` onto `Fin (B * S)`
  -- carries each summand to the corresponding one.
  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.LibIdxSums.lean ====
/-
  Sums over the index set of a rank-3 or rank-4 shape as iterated sums over the coordinates, and the sum of a
  function supported at one pair of coordinates.
-/
import Idealize.ShloMosaic.Lib.ValueIdx

open scoped BigOperators

namespace Cert.LibIdxSums

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A function of two coordinates that is `v` where both are zero and zero elsewhere sums to `v`. -/
theorem sum_corner {M : Type*} [AddCommMonoid M] {n1 n2 : Nat} (h1 : 0 < n1) (h2 : 0 < n2) (v : M) :
    ∑ r : Fin n1, ∑ l : Fin n2, (if r.val = 0 ∧ l.val = 0 then v else 0) = v := by
  rw [Finset.sum_eq_single (⟨0, h1⟩ : Fin n1)]
  · rw [Finset.sum_eq_single (⟨0, h2⟩ : Fin n2)]
    · simp
    · intro l _ hl
      have : l.val ≠ 0 := fun e => hl (Fin.ext e)
      simp [this]
    · intro h; exact absurd (Finset.mem_univ _) h
  · intro r _ hr
    have : r.val ≠ 0 := fun e => hr (Fin.ext e)
    simp [this]
  · intro h; exact absurd (Finset.mem_univ _) h

end Cert.LibIdxSums
-- ==== Proof.Spec.lean ====
/-
  The mathematics of the certificate.  For data `X[k, l, c, h, w]`, coefficients `B[k, l, b]` and a basis
  `A[h, w, b]` (three basis functions), both programs compute the sum over every `(k, l, c, h, w)` of the squared
  deviation `(X[k,l,c,h,w] - s · Σ_b B[k,l,b] · A[h,w,b])²`, `s` the scale 5000, and divide it by the same
  constant.  They differ in the order of summation only: the kernel takes four rows `k` at a time, adds a row's
  three channels and the four rows into one accumulator over `(l, h, w)` and sums that; the reference sums over
  `l` first and then over the rest; and the reference squares the absolute value of the deviation.  On the
  extended reals addition is commutative and associative and `|d| · |d| = d · d`, so the two sums agree with no
  finiteness assumption.
-/
import Idealize.ShloMosaic.PureOps.Ideal
import Idealize.ShloMosaic.Lib.ValueIdx
import proofs.«409956_j40200893891226_3_alg».proof.Proof.LibSums
import proofs.«409956_j40200893891226_3_alg».proof.Proof.LibIdxSums

noncomputable section

open scoped BigOperators

namespace Cert.Mse

open Idealize.ShloMosaic Idealize.ShloMosaic.ValueIdx

/-- The scale: the extended real the word of `5000.0` denotes (the same word in both programs, never evaluated). -/
def scale : EReal := Ideal.ofBits .f32 0x459C4000#32

/-- One squared deviation: the datum `xv` against the scaled combination of three basis values. -/
def cell (xv b0 b1 b2 a0 a1 a2 : EReal) : EReal :=
  (xv - (b0 * a0 + b1 * a1 + b2 * a2) * scale) * (xv - (b0 * a0 + b1 * a1 + b2 * a2) * scale)

/-- The squared deviation at `(k, l, c, h, w)` of the whole arrays. -/
def sqdev (X : (⟨5, ![16, 8, 3, 200, 200]⟩ : Shape).Idx → EReal) (B : (⟨3, ![16, 8, 3]⟩ : Shape).Idx → EReal)
    (A : (⟨3, ![200, 200, 3]⟩ : Shape).Idx → EReal) (k : Fin 16) (l : Fin 8) (c : Fin 3) (h w : Fin 200) : EReal :=
  cell (X (ix5 k l c h w)) (B (ix3 k l 0)) (B (ix3 k l 1)) (B (ix3 k l 2)) (A (ix3 h w 0)) (A (ix3 h w 1)) (A (ix3 h w 2))

/-- THE TOTAL: the sum of all squared deviations. -/
def total (X : (⟨5, ![16, 8, 3, 200, 200]⟩ : Shape).Idx → EReal) (B : (⟨3, ![16, 8, 3]⟩ : Shape).Idx → EReal)
    (A : (⟨3, ![200, 200, 3]⟩ : Shape).Idx → EReal) : EReal :=
  ∑ k : Fin 16, ∑ l : Fin 8, ∑ c : Fin 3, ∑ h : Fin 200, ∑ w : Fin 200, sqdev X B A k l c h w

/-- The squared deviation at `(kb, l, c, h, w)` of one step's blocks: four data rows, their coefficients, and the
    basis with its function index leading. -/
def bcell (x0 : (⟨5, ![4, 8, 3, 200, 200]⟩ : Shape).Idx → EReal) (x1 : (⟨3, ![4, 8, 3]⟩ : Shape).Idx → EReal)
    (x2 : (⟨3, ![3, 200, 200]⟩ : Shape).Idx → EReal) (kb : Fin 4) (l : Fin 8) (c : Fin 3) (h w : Fin 200) : EReal :=
  cell (x0 (ix5 kb l c h w)) (x1 (ix3 kb l 0)) (x1 (ix3 kb l 1)) (x1 (ix3 kb l 2)) (x2 (ix3 0 h w)) (x2 (ix3 1 h w)) (x2 (ix3 2 h w))

/-- What one step accumulates at `(l, h, w)`: its four rows' three channels. -/
def bacc (x0 : (⟨5, ![4, 8, 3, 200, 200]⟩ : Shape).Idx → EReal) (x1 : (⟨3, ![4, 8, 3]⟩ : Shape).Idx → EReal)
    (x2 : (⟨3, ![3, 200, 200]⟩ : Shape).Idx → EReal) (l : Fin 8) (h w : Fin 200) : EReal :=
  ∑ kb : Fin 4, ∑ c : Fin 3, bcell x0 x1 x2 kb l c h w

/-- One step's total: its accumulator summed. -/
def btotal (x0 : (⟨5, ![4, 8, 3, 200, 200]⟩ : Shape).Idx → EReal) (x1 : (⟨3, ![4, 8, 3]⟩ : Shape).Idx → EReal)
    (x2 : (⟨3, ![3, 200, 200]⟩ : Shape).Idx → EReal) : EReal :=
  ∑ l : Fin 8, ∑ h : Fin 200, ∑ w : Fin 200, bacc x0 x1 x2 l h w

/-- The square of the absolute value is the square, at the infinities too. -/
theorem abs_mul_abs (d : EReal) : max d (-d) * max d (-d) = d * d := by
  rcases le_total d (-d) with h | h
  · rw [max_eq_right h, neg_mul_neg]
  · rw [max_eq_left h]

/-- Twelve terms added one after the other onto zero are their double sum. -/
theorem chain12 {M : Type*} [AddCommMonoid M] (d : Fin 4 → Fin 3 → M) :
    0 + d 0 0 + d 0 1 + d 0 2 + d 1 0 + d 1 1 + d 1 2 + d 2 0 + d 2 1 + d 2 2 + d 3 0 + d 3 1 + d 3 2
      = ∑ kb : Fin 4, ∑ c : Fin 3, d kb c := by
  simp only [Fin.sum_univ_four, Fin.sum_univ_three, zero_add, add_assoc]

/-- The kernel's order of summation inside a step, regrouped rows first. -/
theorem regroup {M : Type*} [AddCommMonoid M] (g : Fin 4 → Fin 8 → Fin 3 → Fin 200 → Fin 200 → M) :
    ∑ l : Fin 8, ∑ h : Fin 200, ∑ w : Fin 200, ∑ kb : Fin 4, ∑ c : Fin 3, g kb l c h w
      = ∑ kb : Fin 4, ∑ l : Fin 8, ∑ c : Fin 3, ∑ h : Fin 200, ∑ w : Fin 200, g kb l c h w := by
  calc ∑ l : Fin 8, ∑ h : Fin 200, ∑ w : Fin 200, ∑ kb : Fin 4, ∑ c : Fin 3, g kb l c h w
      = ∑ l : Fin 8, ∑ h : Fin 200, ∑ kb : Fin 4, ∑ w : Fin 200, ∑ c : Fin 3, g kb l c h w :=
        Finset.sum_congr rfl fun l _ => Finset.sum_congr rfl fun h _ => Finset.sum_comm
    _ = ∑ l : Fin 8, ∑ kb : Fin 4, ∑ h : Fin 200, ∑ w : Fin 200, ∑ c : Fin 3, g kb l c h w :=
        Finset.sum_congr rfl fun l _ => Finset.sum_comm
    _ = ∑ kb : Fin 4, ∑ l : Fin 8, ∑ h : Fin 200, ∑ w : Fin 200, ∑ c : Fin 3, g kb l c h w := Finset.sum_comm
    _ = ∑ kb : Fin 4, ∑ l : Fin 8, ∑ h : Fin 200, ∑ c : Fin 3, ∑ w : Fin 200, g kb l c h w :=
        Finset.sum_congr rfl fun kb _ => Finset.sum_congr rfl fun l _ => Finset.sum_congr rfl fun h _ => Finset.sum_comm
    _ = ∑ kb : Fin 4, ∑ l : Fin 8, ∑ c : Fin 3, ∑ h : Fin 200, ∑ w : Fin 200, g kb l c h w :=
        Finset.sum_congr rfl fun kb _ => Finset.sum_congr rfl fun l _ => Finset.sum_comm

/-- THE KERNEL'S SUM: the four steps' totals, step `t` holding rows `4t … 4t+3`, add up to the total. -/
theorem steps_total (X : (⟨5, ![16, 8, 3, 200, 200]⟩ : Shape).Idx → EReal) (B : (⟨3, ![16, 8, 3]⟩ : Shape).Idx → EReal)
    (A : (⟨3, ![200, 200, 3]⟩ : Shape).Idx → EReal) :
    ∑ t : Fin 4, ∑ l : Fin 8, ∑ h : Fin 200, ∑ w : Fin 200, ∑ kb : Fin 4, ∑ c : Fin 3,
        sqdev X B A ⟨t.val * 4 + kb.val, Cert.LibSums.blocks_lt t kb⟩ l c h w
      = total X B A := by
  unfold total
  rw [← Cert.LibSums.sum_blocks 4 4 (fun k : Fin (4 * 4) => ∑ l : Fin 8, ∑ c : Fin 3, ∑ h : Fin 200, ∑ w : Fin 200, sqdev X B A k l c h w)]
  exact Finset.sum_congr rfl fun t _ =>
    regroup (fun kb l c h w => sqdev X B A ⟨t.val * 4 + kb.val, Cert.LibSums.blocks_lt t kb⟩ l c h w)

/-- THE REFERENCE'S SUM: over `(k, c, h, w)` of the sum over `l`, it is the total. -/
theorem ref_total (X : (⟨5, ![16, 8, 3, 200, 200]⟩ : Shape).Idx → EReal) (B : (⟨3, ![16, 8, 3]⟩ : Shape).Idx → EReal)
    (A : (⟨3, ![200, 200, 3]⟩ : Shape).Idx → EReal) :
    ∑ k : Fin 16, ∑ c : Fin 3, ∑ h : Fin 200, ∑ w : Fin 200, ∑ l : Fin 8, sqdev X B A k l c h w = total X B A := by
  unfold total
  refine Finset.sum_congr rfl fun k _ => ?_
  calc ∑ c : Fin 3, ∑ h : Fin 200, ∑ w : Fin 200, ∑ l : Fin 8, sqdev X B A k l c h w
      = ∑ c : Fin 3, ∑ h : Fin 200, ∑ l : Fin 8, ∑ w : Fin 200, sqdev X B A k l c h w :=
        Finset.sum_congr rfl fun c _ => Finset.sum_congr rfl fun h _ => Finset.sum_comm
    _ = ∑ c : Fin 3, ∑ l : Fin 8, ∑ h : Fin 200, ∑ w : Fin 200, sqdev X B A k l c h w :=
        Finset.sum_congr rfl fun c _ => Finset.sum_comm
    _ = ∑ l : Fin 8, ∑ c : Fin 3, ∑ h : Fin 200, ∑ w : Fin 200, sqdev X B A k l c h w := Finset.sum_comm

end Cert.Mse

end
-- ==== Proof.Layout.lean ====
/-
  The layout chains of the kernel body, each read at one index.  The body slices one row `kb` of the
  coefficient block, one basis plane `b` of the basis block and one channel `c` of a data row, and re-lays
  each of them to the common (row, height, width) shape before it combines them; read at `(l, h, w)` each chain
  is one element of its block.  Last, the output tile: the block's total in its corner, zero elsewhere.
-/
import Idealize.ShloMosaic.Lib.Pipeline.Value
import Idealize.ShloMosaic.Lib.ValueIdx
import Idealize.ShloMosaic.Lib.StableHlo.Predicate

namespace Cert.Layout

open Idealize.ShloMosaic Idealize.ShloMosaic.ValueIdx

variable {α : Type}

/-- Coefficient `(kb, l, b)` of the block, broadcast along height and width: row `kb` of the block is sliced,
    its column `b` taken, and the column re-laid as [8, 1, 1] and broadcast to [8, 200, 200]. -/
theorem coeff_read (kb b : Nat) (hkb : kb < 4) (hb : b < 3) (v : (⟨3, ![4, 8, 3]⟩ : Shape).Idx → α)
    (h1 : (⟨3, ![4, 8, 3]⟩ : Shape).Slices ![kb, 0, 0] ⟨3, ![1, 8, 3]⟩)
    (h2 : (⟨3, ![1, 8, 3]⟩ : Shape).ShapeCasts ⟨2, ![8, 3]⟩)
    (h3 : (⟨2, ![8, 3]⟩ : Shape).Slices ![0, b] ⟨2, ![8, 1]⟩)
    (h4 : (⟨2, ![8, 1]⟩ : Shape).ShapeCasts ⟨1, ![8]⟩)
    (h5 : (⟨1, ![8]⟩ : Shape).ShapeCasts ⟨3, ![8, 1, 1]⟩)
    (h6 : (⟨3, ![8, 1, 1]⟩ : Shape).Broadcasts ⟨3, ![8, 200, 200]⟩)
    (l : Fin 8) (h w : Fin 200) :
    broadcastTo ⟨3, ![8, 200, 200]⟩ (shapeCast ⟨3, ![8, 1, 1]⟩ (shapeCast ⟨1, ![8]⟩ (extractStridedSlice ⟨2, ![8, 1]⟩ ![0, b]
      (shapeCast ⟨2, ![8, 3]⟩ (extractStridedSlice ⟨3, ![1, 8, 3]⟩ ![kb, 0, 0] v h1) h2) h3) h4) h5) h6 (ix3 l h w)
      = v (ix3 ⟨kb, hkb⟩ l ⟨b, hb⟩) := by
  have hl : l.val < 8 := l.isLt
  refine (broadcastTo_apply _ h6 (ix3 l h w) (ix3 l ⟨0, Nat.one_pos⟩ ⟨0, Nat.one_pos⟩) (fun a => match a with
    | ⟨0, _⟩ => by show l.val = if (8 : Nat) = 1 then 0 else l.val; rw [if_neg (by decide)]
    | ⟨1, _⟩ => by show (0 : Nat) = if (1 : Nat) = 1 then 0 else h.val; rw [if_pos rfl]
    | ⟨2, _⟩ => by show (0 : Nat) = if (1 : Nat) = 1 then 0 else w.val; rw [if_pos rfl])).trans ?_
  refine (shapeCast_apply _ h5 _ (ix1 l) (by
    rw [Shape.rowMajor_val_one, Shape.rowMajor_val_three]
    show l.val = (l.val * 1 + 0) * 1 + 0
    omega)).trans ?_
  refine (shapeCast_apply _ h4 _ (ix2 l ⟨0, Nat.one_pos⟩) (by
    rw [Shape.rowMajor_val_one, Shape.rowMajor_val_two]
    show l.val * 1 + 0 = l.val
    omega)).trans ?_
  refine (extractStridedSlice_apply ![0, b] _ h3 _ (ix2 l ⟨b, hb⟩) (fun a => match a with
    | ⟨0, _⟩ => by show l.val = 0 + l.val; omega
    | ⟨1, _⟩ => by show b = b + 0; omega)).trans ?_
  refine (shapeCast_apply _ h2 _ (ix3 ⟨0, Nat.one_pos⟩ l ⟨b, hb⟩) (by
    rw [Shape.rowMajor_val_two, Shape.rowMajor_val_three]
    show (0 * 8 + l.val) * 3 + b = l.val * 3 + b
    omega)).trans ?_
  exact extractStridedSlice_apply ![kb, 0, 0] _ h1 _ (ix3 ⟨kb, hkb⟩ l ⟨b, hb⟩) (fun a => match a with
    | ⟨0, _⟩ => by show kb = kb + 0; omega
    | ⟨1, _⟩ => by show l.val = 0 + l.val; omega
    | ⟨2, _⟩ => by show b = 0 + b; omega)

/-- Basis value `(b, h, w)`, broadcast along the rows: plane `b` of the basis block is sliced, its unit axis
    dropped and put back, and the plane broadcast to [8, 200, 200]. -/
theorem basis_read (b : Nat) (hb : b < 3) (v : (⟨3, ![3, 200, 200]⟩ : Shape).Idx → α)
    (h1 : (⟨3, ![3, 200, 200]⟩ : Shape).Slices ![b, 0, 0] ⟨3, ![1, 200, 200]⟩)
    (h2 : (⟨3, ![1, 200, 200]⟩ : Shape).ShapeCasts ⟨2, ![200, 200]⟩)
    (h3 : (⟨2, ![200, 200]⟩ : Shape).ShapeCasts ⟨3, ![1, 200, 200]⟩)
    (h4 : (⟨3, ![1, 200, 200]⟩ : Shape).Broadcasts ⟨3, ![8, 200, 200]⟩)
    (l : Fin 8) (h w : Fin 200) :
    broadcastTo ⟨3, ![8, 200, 200]⟩ (shapeCast ⟨3, ![1, 200, 200]⟩ (shapeCast ⟨2, ![200, 200]⟩
      (extractStridedSlice ⟨3, ![1, 200, 200]⟩ ![b, 0, 0] v h1) h2) h3) h4 (ix3 l h w)
      = v (ix3 ⟨b, hb⟩ h w) := by
  rw [shapeCast_shapeCast]
  refine (broadcastTo_apply _ h4 (ix3 l h w) (ix3 ⟨0, Nat.one_pos⟩ h w) (fun a => match a with
    | ⟨0, _⟩ => by show (0 : Nat) = if (1 : Nat) = 1 then 0 else l.val; rw [if_pos rfl]
    | ⟨1, _⟩ => by show h.val = if (200 : Nat) = 1 then 0 else h.val; rw [if_neg (by decide)]
    | ⟨2, _⟩ => by show w.val = if (200 : Nat) = 1 then 0 else w.val; rw [if_neg (by decide)])).trans ?_
  exact extractStridedSlice_apply ![b, 0, 0] _ h1 _ (ix3 ⟨b, hb⟩ h w) (fun a => match a with
    | ⟨0, _⟩ => by show b = b + 0; omega
    | ⟨1, _⟩ => by show h.val = 0 + h.val; omega
    | ⟨2, _⟩ => by show w.val = 0 + w.val; omega)

/-- Channel `c` of a loaded data row at `(l, h, w)`: the row's unit axis is dropped, channel `c` sliced and its
    unit axis dropped. -/
theorem chan_read (c : Nat) (hc : c < 3) (v : (⟨5, ![1, 8, 3, 200, 200]⟩ : Shape).Idx → α)
    (h1 : (⟨5, ![1, 8, 3, 200, 200]⟩ : Shape).ShapeCasts ⟨4, ![8, 3, 200, 200]⟩)
    (h2 : (⟨4, ![8, 3, 200, 200]⟩ : Shape).Slices ![0, c, 0, 0] ⟨4, ![8, 1, 200, 200]⟩)
    (h3 : (⟨4, ![8, 1, 200, 200]⟩ : Shape).ShapeCasts ⟨3, ![8, 200, 200]⟩)
    (l : Fin 8) (h w : Fin 200) :
    shapeCast ⟨3, ![8, 200, 200]⟩ (extractStridedSlice ⟨4, ![8, 1, 200, 200]⟩ ![0, c, 0, 0]
      (shapeCast ⟨4, ![8, 3, 200, 200]⟩ v h1) h2) h3 (ix3 l h w)
      = v (ix5 ⟨0, Nat.one_pos⟩ l ⟨c, hc⟩ h w) := by
  have hl : l.val < 8 := l.isLt
  refine (shapeCast_apply _ h3 _ (ix4 l ⟨0, Nat.one_pos⟩ h w) (by
    rw [Shape.rowMajor_val_three, Shape.rowMajor_val_four]
    show ((l.val * 1 + 0) * 200 + h.val) * 200 + w.val = (l.val * 200 + h.val) * 200 + w.val
    omega)).trans ?_
  refine (extractStridedSlice_apply ![0, c, 0, 0] _ h2 _ (ix4 l ⟨c, hc⟩ h w) (fun a => match a with
    | ⟨0, _⟩ => by show l.val = 0 + l.val; omega
    | ⟨1, _⟩ => by show c = c + 0; omega
    | ⟨2, _⟩ => by show h.val = 0 + h.val; omega
    | ⟨3, _⟩ => by show w.val = 0 + w.val; omega)).trans ?_
  exact shapeCast_apply _ h1 _ (ix5 ⟨0, Nat.one_pos⟩ l ⟨c, hc⟩ h w) (by
    rw [Shape.rowMajor_val_four, Shape.rowMajor_val_five]
    show ((((0 * 8 + l.val) * 3 + c) * 200 + h.val) * 200 + w.val) = ((l.val * 3 + c) * 200 + h.val) * 200 + w.val
    omega)

/-- The accumulator viewed with a leading unit axis, read at `(0, l, h, w)`. -/
theorem acc_read (v : (⟨3, ![8, 200, 200]⟩ : Shape).Idx → α)
    (h1 : (⟨3, ![8, 200, 200]⟩ : Shape).ShapeCasts ⟨4, ![1, 8, 200, 200]⟩)
    (z : Fin 1) (l : Fin 8) (h w : Fin 200) :
    shapeCast ⟨4, ![1, 8, 200, 200]⟩ v h1 (ix4 z l h w) = v (ix3 l h w) := by
  have hz : z.val < 1 := z.isLt
  exact shapeCast_apply _ h1 _ (ix3 l h w) (by
    rw [Shape.rowMajor_val_three, Shape.rowMajor_val_four]
    show (l.val * 200 + h.val) * 200 + w.val = (((z.val * 8 + l.val) * 200 + h.val) * 200 + w.val)
    have : z.val = 0 := by omega
    rw [this]; omega)

/-- A word below 2^32 is the zero word exactly when it is zero. -/
theorem ofNat_eq_zero_iff (n : Nat) (hn : n < 2 ^ 32) : BitVec.ofNat 32 n = 0#32 ↔ n = 0 := by
  constructor
  · intro h
    have := congrArg BitVec.toNat h
    simp only [BitVec.toNat_ofNat, BitVec.toNat_zero] at this
    rw [Nat.mod_eq_of_lt hn] at this
    exact this
  · rintro rfl; rfl

/-- The conjunction of two one-bit words is set exactly when both are. -/
theorem and_eq_one_iff : ∀ a b : BitVec 1, a &&& b = 1#1 ↔ a = 1#1 ∧ b = 1#1 := by decide

/-- THE OUTPUT TILE: the value `tot` where row and lane are both zero, `zero` elsewhere, with its leading unit
    axis. -/
theorem tile_read (tot zero : α)
    (hi0 : (⟨2, ![8, 128]⟩ : Shape).Iotas .tc 32 [0]) (hi1 : (⟨2, ![8, 128]⟩ : Shape).Iotas .tc 32 [1])
    (h1 : (⟨2, ![8, 128]⟩ : Shape).ShapeCasts ⟨3, ![1, 8, 128]⟩) (j : (⟨3, ![1, 8, 128]⟩ : Shape).Idx) :
    shapeCast ⟨3, ![1, 8, 128]⟩ (select (andi (cmpi .eq (iota .tc ⟨2, ![8, 128]⟩ 32 [0] hi0) (broadcast ⟨2, ![8, 128]⟩ 0#32))
        (cmpi .eq (iota .tc ⟨2, ![8, 128]⟩ 32 [1] hi1) (broadcast ⟨2, ![8, 128]⟩ 0#32)))
      (broadcast ⟨2, ![8, 128]⟩ tot) (broadcast ⟨2, ![8, 128]⟩ zero)) h1 j
      = if (j 1).val = 0 ∧ (j 2).val = 0 then tot else zero := by
  have h0 : (j 0).val < 1 := (j 0).isLt
  have hr : (j 1).val < 8 := (j 1).isLt
  have hl : (j 2).val < 128 := (j 2).isLt
  refine (shapeCast_apply _ h1 j (ix2 (j 1) (j 2)) (by
    rw [Shape.rowMajor_val_two, Shape.rowMajor_val_three]
    show (j 1).val * 128 + (j 2).val = ((j 0).val * 8 + (j 1).val) * 128 + (j 2).val
    have : (j 0).val = 0 := by omega
    rw [this]; omega)).trans ?_
  rw [select_apply]
  show Scalar.select (IntOp.cmpi .eq (iota .tc ⟨2, ![8, 128]⟩ 32 [0] hi0 (ix2 (j 1) (j 2))) 0#32
      &&& IntOp.cmpi .eq (iota .tc ⟨2, ![8, 128]⟩ 32 [1] hi1 (ix2 (j 1) (j 2))) 0#32) tot zero = _
  rw [iota_single_apply, iota_single_apply]
  show (if _ = 1#1 then tot else zero) = _
  refine if_congr ?_ rfl rfl
  rw [and_eq_one_iff, StableHlo.Predicate.cmpi_eq_iff, StableHlo.Predicate.cmpi_eq_iff]
  show BitVec.ofNat 32 (j 1).val = 0#32 ∧ BitVec.ofNat 32 (j 2).val = 0#32 ↔ _
  rw [ofNat_eq_zero_iff _ (by omega), ofNat_eq_zero_iff _ (by omega)]

end Cert.Layout
-- ==== Proof.Payload.lean ====
/-
  What one grid step stores: the step's total of squared deviations in the corner of its output tile.
-/
import proofs.«409956_j40200893891226_3_alg».proof.Proof.Gen.KernelIdeal.Frame
import proofs.«409956_j40200893891226_3_alg».proof.Proof.Spec
import proofs.«409956_j40200893891226_3_alg».proof.Proof.Layout
import Idealize.ShloMosaic.PureOps.Ideal.Laws

noncomputable section

open scoped BigOperators

namespace Cert.KernelIdeal.Payload

open Cert.KernelIdeal Cert.KernelIdeal.Gen Idealize.ShloMosaic Idealize.ShloMosaic.ValueIdx
open Facts₀

/-- The scaled combination of the three basis values for row `kb` at `(l, h, w)`. -/
def prow (x1 : Vec Ideal S4x8x3 .f32) (x2 : Vec Ideal S3x200x200 .f32) (kb : Fin 4) (l : Fin 8) (h w : Fin 200) : EReal :=
  (x1 (ix3 kb l 0) * x2 (ix3 0 h w) + x1 (ix3 kb l 1) * x2 (ix3 1 h w) + x1 (ix3 kb l 2) * x2 (ix3 2 h w)) * Cert.Mse.scale

/-- The basis block's cast to its own shape is the block. -/
theorem pay2_eq (v0 : Vec Ideal S3x200x200 .f32) : k0_pay2 v0 = v0 := shapeCast_self _ _

/-- The combination as the body adds it up, from zero, is the combination. -/
theorem prow_of_reads (c0 c1 c2 a0 a1 a2 : EReal) :
    (FloatOps.ofBits (F := Ideal) .f32 0x00000000#32 + c0 * a0 + c1 * a1 + c2 * a2) * FloatOps.ofBits (F := Ideal) .f32 0x459C4000#32
      = (c0 * a0 + c1 * a1 + c2 * a2) * Cert.Mse.scale := by
  simp only [Ideal.ofBits_def, Ideal.ofBits_zero_f32, zero_add]
  rfl

/-- Row 0's combination. -/
theorem pay4_apply (v0 : Vec Ideal S3x200x200 .f32) (v2 : Vec Ideal S4x8x3 .f32) (l : Fin 8) (h w : Fin 200) :
    k0_pay4 v0 v2 (ix3 l h w) = prow v2 v0 0 l h w := by
  simp only [k0_pay4, pay2_eq, mulf_apply, addf_apply, broadcast_apply]
  rw [Cert.Layout.coeff_read 0 0 (by decide) (by decide), Cert.Layout.coeff_read 0 1 (by decide) (by decide),
    Cert.Layout.coeff_read 0 2 (by decide) (by decide), Cert.Layout.basis_read 0 (by decide),
    Cert.Layout.basis_read 1 (by decide), Cert.Layout.basis_read 2 (by decide)]
  exact prow_of_reads _ _ _ _ _ _

/-- Row 1's combination. -/
theorem pay7_apply (v1 : FVec Ideal S3x200x200 .f32) (v2 : Vec Ideal S4x8x3 .f32) (l : Fin 8) (h w : Fin 200) :
    k0_pay7 v1 v2 (ix3 l h w) = prow v2 v1 1 l h w := by
  simp only [k0_pay7, mulf_apply, addf_apply, broadcast_apply]
  rw [Cert.Layout.coeff_read 1 0 (by decide) (by decide), Cert.Layout.coeff_read 1 1 (by decide) (by decide),
    Cert.Layout.coeff_read 1 2 (by decide) (by decide), Cert.Layout.basis_read 0 (by decide),
    Cert.Layout.basis_read 1 (by decide), Cert.Layout.basis_read 2 (by decide)]
  exact prow_of_reads _ _ _ _ _ _

/-- Row 2's combination. -/
theorem pay10_apply (v1 : FVec Ideal S3x200x200 .f32) (v2 : Vec Ideal S4x8x3 .f32) (l : Fin 8) (h w : Fin 200) :
    k0_pay10 v1 v2 (ix3 l h w) = prow v2 v1 2 l h w := by
  simp only [k0_pay10, mulf_apply, addf_apply, broadcast_apply]
  rw [Cert.Layout.coeff_read 2 0 (by decide) (by decide), Cert.Layout.coeff_read 2 1 (by decide) (by decide),
    Cert.Layout.coeff_read 2 2 (by decide) (by decide), Cert.Layout.basis_read 0 (by decide),
    Cert.Layout.basis_read 1 (by decide), Cert.Layout.basis_read 2 (by decide)]
  exact prow_of_reads _ _ _ _ _ _

/-- Row 3's combination. -/
theorem pay14_apply (v1 : FVec Ideal S3x200x200 .f32) (v2 : Vec Ideal S4x8x3 .f32) (l : Fin 8) (h w : Fin 200) :
    k0_pay14 v1 v2 (ix3 l h w) = prow v2 v1 3 l h w := by
  simp only [k0_pay14, mulf_apply, addf_apply, broadcast_apply]
  rw [Cert.Layout.coeff_read 3 0 (by decide) (by decide), Cert.Layout.coeff_read 3 1 (by decide) (by decide),
    Cert.Layout.coeff_read 3 2 (by decide) (by decide), Cert.Layout.basis_read 0 (by decide),
    Cert.Layout.basis_read 1 (by decide), Cert.Layout.basis_read 2 (by decide)]
  exact prow_of_reads _ _ _ _ _ _

theorem hz3 : (![0, 0, 0] : Fin 3 → Nat) = fun _ => 0 := funext fun a => by fin_cases a <;> rfl

/-- Data row `kb` of the block, loaded with a leading unit axis, read at `(0, l, c, h, w)`. -/
theorem ld_row (x0 : Vec Ideal S4x8x3x200x200 .f32) (kb : Nat) (hkb : kb < 4)
    (inb : ∀ a, (![kb, 0, 0, 0, 0] : Fin 5 → Nat) a + S1x8x3x200x200.size a ≤ S4x8x3x200x200.size a)
    (z : Fin 1) (l : Fin 8) (c : Fin 3) (h w : Fin 200) :
    View.ld x0 (Rect.unit (s := S4x8x3x200x200) ![kb, 0, 0, 0, 0] S1x8x3x200x200.size inb) (ix5 z l c h w)
      = x0 (ix5 ⟨kb, hkb⟩ l c h w) := by
  have hz : z.val < 1 := z.isLt
  show x0 _ = x0 _
  refine congrArg x0 (funext fun a => Fin.ext ?_)
  match a with
  | ⟨0, _⟩ => show kb + 1 * z.val = kb; omega
  | ⟨1, _⟩ => show 0 + 1 * l.val = l.val; omega
  | ⟨2, _⟩ => show 0 + 1 * c.val = c.val; omega
  | ⟨3, _⟩ => show 0 + 1 * h.val = h.val; omega
  | ⟨4, _⟩ => show 0 + 1 * w.val = w.val; omega

/-- WHAT A STEP STORES: its blocks' total where row and lane are zero, zero elsewhere. -/
theorem out_eq (x0 : Vec Ideal S4x8x3x200x200 .f32) (x1 : Vec Ideal S4x8x3 .f32) (x2 : Vec Ideal S3x200x200 .f32) :
    out0_3 (F := Ideal) x0 x1 x2 = fun j => if (j 1).val = 0 ∧ (j 2).val = 0 then Cert.Mse.btotal x0 x1 x2 else 0 := by
  unfold out0_3
  rw [View.canon_unit_zero hz3]
  funext j
  simp only [k0_pay1]
  refine (Cert.Layout.tile_read _ _ _ _ _ j).trans ?_
  refine if_congr Iff.rfl ?_ Ideal.ofBits_zero_f32
  unfold extractAt
  -- the one-element sum vector read at its element: the sum over the accumulator
  refine (shapeCast_apply _ _ _ (ix1 ⟨0, Nat.one_pos⟩) (by
    rw [Shape.rowMajor_val_one, Shape.rowMajor_val_four]; rfl)).trans ?_
  refine (Ideal.multiReduction_add_total _ _ _ (fun b => by fin_cases b; rfl) _ _ _).trans ?_
  refine (Cert.LibIdxSums.sum_idx4 _).trans ?_
  rw [Fin.sum_univ_one]
  unfold Cert.Mse.btotal
  refine Finset.sum_congr rfl fun l _ => Finset.sum_congr rfl fun h _ => Finset.sum_congr rfl fun w _ => ?_
  rw [Cert.Layout.acc_read]
  -- the accumulator at (l, h, w): twelve squared deviations added one after the other onto zero
  simp only [addf_apply, mulf_apply, subf_apply, broadcast_apply, k0_pay16, k0_pay12, k0_pay9, k0_pay6, k0_pay3, k0_pay17,
    k0_pay13, k0_pay15, k0_pay11, k0_pay8, k0_pay5, pay2_eq, pay4_apply, pay7_apply, pay10_apply, pay14_apply,
    View.ld_unit_zero (S := S3x200x200) hz3, View.ld_unit_zero (S := S4x8x3) hz3,
    Cert.Layout.chan_read 0 (by decide), Cert.Layout.chan_read 1 (by decide), Cert.Layout.chan_read 2 (by decide),
    ld_row x0 0 (by decide), ld_row x0 1 (by decide), ld_row x0 2 (by decide), ld_row x0 3 (by decide),
    Ideal.ofBits_def, Ideal.ofBits_zero_f32]
  exact Cert.Mse.chain12 (fun kb c => Cert.Mse.bcell x0 x1 x2 kb l c h w)

end Cert.KernelIdeal.Payload

end
-- ==== Proof.KernelValue.lean ====
/-
  The kernel's result.  Step `t` of the grid reads data rows `4t … 4t+3`, their coefficients and the whole basis
  (transposed by the host so that the function index leads), and writes the step's total into the corner of tile
  `t` of a [4, 8, 128] array, zero elsewhere; the host sums that array and divides.  So the result is the total of
  all squared deviations divided by the host's constant.
-/
import proofs.«409956_j40200893891226_3_alg».proof.Proof.Payload
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (ρ : Dev nD → PrngReg)

/-- The data, the coefficients and the basis as launched. -/
abbrev X (c : Dev nD) : Vec Ideal S16x8x3x200x200 .f32 := m ((c : Thread nD τ).loc main_arg0)
abbrev B (c : Dev nD) : Vec Ideal S16x8x3 .f32 := m ((c : Thread nD τ).loc main_arg1)
abbrev A (c : Dev nD) : Vec Ideal S200x200x3 .f32 := m ((c : Thread nD τ).loc main_arg2)

/-- The three input blocks of step `t`. -/
abbrev xblk (c : Dev nD) (t : Fin cfg0.N) : Vec Ideal S4x8x3x200x200 .f32 := iblk m c 0 t
abbrev bblk (c : Dev nD) (t : Fin cfg0.N) : Vec Ideal S4x8x3 .f32 := iblk m c 1 t
abbrev ablk (c : Dev nD) (t : Fin cfg0.N) : Vec Ideal S3x200x200 .f32 := iblk m c 2 t

/-- The printed index maps, decided over the grid: the data, coefficient and output windows move with the step
    along their leading axis; the basis window stays. -/
theorem idx_facts : ∀ t : Fin cfg0.N,
    win0_0.index t (0 : Fin 5) = t.val ∧ win0_0.index t (1 : Fin 5) = 0 ∧ win0_0.index t (2 : Fin 5) = 0
    ∧ win0_0.index t (3 : Fin 5) = 0 ∧ win0_0.index t (4 : Fin 5) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem t_lt (t : Fin cfg0.N) : t.val < 4 := lt_of_lt_of_eq t.isLt (N_0 : cfg0.N = 4)

/-- The data block of step `t` is rows `4t … 4t+3` of the data. -/
theorem xblk_apply (c : Dev nD) (t : Fin cfg0.N) (kb : Fin 4) (l : Fin 8) (c' : Fin 3) (h w : Fin 200) :
    xblk m c t (ix5 kb l c' h w) = X m c (ix5 ⟨t.val * 4 + kb.val, by have := t_lt t; omega⟩ l c' h w) := by
  obtain ⟨e0, e1, e2, e3, e4, -⟩ := idx_facts t
  unfold xblk iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 5) * 4 + 1 * kb.val = t.val * 4 + kb.val; rw [e0]; omega
  | ⟨1, _⟩ => show win0_0.index t (1 : Fin 5) * 8 + 1 * l.val = l.val; rw [e1]; omega
  | ⟨2, _⟩ => show win0_0.index t (2 : Fin 5) * 3 + 1 * c'.val = c'.val; rw [e2]; omega
  | ⟨3, _⟩ => show win0_0.index t (3 : Fin 5) * 200 + 1 * h.val = h.val; rw [e3]; omega
  | ⟨4, _⟩ => show win0_0.index t (4 : Fin 5) * 200 + 1 * w.val = w.val; rw [e4]; omega

/-- The coefficient block of step `t` is rows `4t … 4t+3` of the coefficients. -/
theorem bblk_apply (c : Dev nD) (t : Fin cfg0.N) (kb : Fin 4) (l : Fin 8) (b : Fin 3) :
    bblk m c t (ix3 kb l b) = B m c (ix3 ⟨t.val * 4 + kb.val, by have := t_lt t; omega⟩ l b) := by
  obtain ⟨-, -, -, -, -, e0, e1, e2, -⟩ := idx_facts t
  unfold bblk iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 4 + 1 * kb.val = t.val * 4 + kb.val; rw [e0]; omega
  | ⟨1, _⟩ => show win0_1.index t (1 : Fin 3) * 8 + 1 * l.val = l.val; rw [e1]; omega
  | ⟨2, _⟩ => show win0_1.index t (2 : Fin 3) * 3 + 1 * b.val = b.val; rw [e2]; omega

/-- The host's transpose before the region: the basis with its function index leading. -/
theorem V_main_v0 (c : Dev nD) :
    (V m c main_v0 : S3x200x200.Idx → EReal) = transpose S3x200x200 [2, 0, 1] (A m c) Facts₀.transposes_S200x200x3_S3x200x200_2_0_1 := by
  dsimp only [Gen.V, Gen.V0]
  simp only [Gen.hostOps0, List.flatten_cons, List.flatten_nil, List.append_nil, List.cons_append, List.nil_append]
  after_results

/-- The basis block of every step is the whole transposed basis. -/
theorem ablk_apply (c : Dev nD) (t : Fin cfg0.N) (b : Fin 3) (h w : Fin 200) :
    ablk m c t (ix3 b h w) = A m c (ix3 h w b) := by
  obtain ⟨-, -, -, -, -, -, -, -, e0, e1, e2, -⟩ := idx_facts t
  unfold ablk iblk
  rw [View.read_apply]
  show V m c main_v0 _ = _
  rw [V_main_v0]
  refine transpose_apply _ _ _ _ (ix3 h w b) (fun a => ?_)
  match a with
  | ⟨0, _⟩ => show b.val = win0_2.index t (0 : Fin 3) * 3 + 1 * b.val; rw [e0]; omega
  | ⟨1, _⟩ => show h.val = win0_2.index t (1 : Fin 3) * 200 + 1 * h.val; rw [e1]; omega
  | ⟨2, _⟩ => show w.val = win0_2.index t (2 : Fin 3) * 200 + 1 * w.val; rw [e2]; omega

/-- The total of step `t`: the squared deviations of rows `4t … 4t+3`, in the kernel's order of summation. -/
def stepTotal (c : Dev nD) (t : Fin 4) : EReal :=
  ∑ l : Fin 8, ∑ h : Fin 200, ∑ w : Fin 200, ∑ kb : Fin 4, ∑ c' : Fin 3,
    Cert.Mse.sqdev (X m c) (B m c) (A m c) ⟨t.val * 4 + kb.val, Cert.LibSums.blocks_lt t kb⟩ l c' h w

/-- The blocks' total is the step's. -/
theorem btotal_blocks (c : Dev nD) (t : Fin cfg0.N) :
    Cert.Mse.btotal (xblk m c t) (bblk m c t) (ablk m c t) = stepTotal m c ⟨t.val, t_lt t⟩ := by
  unfold Cert.Mse.btotal Cert.Mse.bacc Cert.Mse.bcell stepTotal Cert.Mse.sqdev
  simp only [xblk_apply, bblk_apply, ablk_apply]

/-- THE OUTPUT ARRAY: tile `t` holds step `t`'s total in its corner and zero elsewhere. -/
def G (c : Dev nD) : Vec Ideal S4x8x128 .f32 := fun i =>
  if (i 1).val = 0 ∧ (i 2).val = 0 then stepTotal m c ⟨(i 0).val, (i 0).isLt⟩ else 0

/-- WHAT STEP `t` WRITES BACK is tile `t` of `G`. -/
theorem flushed_eq (c : Dev nD) (t : Fin cfg0.N) :
    (dats m 0 c).flushed 3 t = ((cfg0.win 3).blk t).view.read (Elt Ideal) (G m c) := by
  obtain ⟨-, -, -, -, -, -, -, -, -, -, -, e0, e1, e2⟩ := idx_facts t
  show (cfg0.win 3).cut (grid0.coords t) ((dats m 0 c).after 3 t) = _
  rw [after0_3, Payload.out_eq]
  funext j
  have hj0 : (j 0).val < 1 := (j 0).isLt
  have c0 : ((((cfg0.win 3).blk t).view.emb j) 0).val = win0_3.index t (0 : Fin 3) * 1 + 1 * (j 0).val := rfl
  have c1 : ((((cfg0.win 3).blk t).view.emb j) 1).val = win0_3.index t (1 : Fin 3) * 8 + 1 * (j 1).val := rfl
  have c2 : ((((cfg0.win 3).blk t).view.emb j) 2).val = win0_3.index t (2 : Fin 3) * 128 + 1 * (j 2).val := rfl
  show (if (j 1).val = 0 ∧ (j 2).val = 0 then Cert.Mse.btotal (xblk m c t) (bblk m c t) (ablk m c t) else 0)
    = G m c (((cfg0.win 3).blk t).view.emb j)
  unfold G
  refine if_congr ?_ ?_ rfl
  · rw [c1, c2, e1, e2]; omega
  · rw [btotal_blocks]
    exact congrArg (stepTotal m c) (Fin.ext (by show t.val = _; rw [c0, e0]; omega))

/-- An index of the array is in step `t`'s tile iff each coordinate is in the tile's range on its axis. -/
theorem mem_blk (t : Fin cfg0.N) (i : S4x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v1).slice (win0_3.rect t)).set ↔ _
  rw [View.set_slice_whole, Rect.mem_set_unit]
  exact Iff.rfl

/-- Every index of the array is in the tile of the step its leading coordinate names. -/
theorem cover (i : S4x8x128.Idx) : ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 128 := (i 2).isLt
  let t : Fin cfg0.N := ⟨(i 0).val, lt_of_lt_of_eq h0 (N_0 : cfg0.N = 4).symm⟩
  obtain ⟨-, -, -, -, -, -, -, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; rw [e0]; show (i 0).val * 1 ≤ (i 0).val ∧ (i 0).val < (i 0).val * 1 + 1; omega
  | ⟨1, _⟩ => show win0_3.index t (1 : Fin 3) * 8 ≤ (i 1).val ∧ (i 1).val < win0_3.index t (1 : Fin 3) * 8 + 8; rw [e1]; omega
  | ⟨2, _⟩ => show win0_3.index t (2 : Fin 3) * 128 ≤ (i 2).val ∧ (i 2).val < win0_3.index t (2 : Fin 3) * 128 + 128; rw [e2]; omega

/-- THE OUTPUT ARRAY after the run is `G`. -/
theorem final (c : Dev nD) : (dats m 0 c).arrAt 3 cfg0.N = G m c :=
  (dats m 0 c).arrAt_eq_of_cover 3 (G m c) (fun t _ => flushed_eq m c t) cover

/-- The sum of `G` is the total of all squared deviations. -/
theorem sum_G (c : Dev nD) : ∑ i : S4x8x128.Idx, G m c i = Cert.Mse.total (X m c) (B m c) (A m c) := by
  refine (Cert.LibIdxSums.sum_idx3 _).trans ?_
  rw [← Cert.Mse.steps_total]
  refine Finset.sum_congr rfl fun t _ => ?_
  exact Cert.LibIdxSums.sum_corner (by decide) (by decide) (stepTotal m c t)

/-- THE RESULT: the total divided by the host's constant. -/
def result (c : Dev nD) : Vec Ideal S_ .f32 :=
  Host.divf (fun _ => Cert.Mse.total (X m c) (B m c) (A m c)) (constant (F := Ideal) S_ .f32 0x49EA6000#32)

/-- The host lines after the region leave `result` in the result buffer. -/
theorem tail_eq (c : Dev nD) : Pipeline.afterTail₀ cfgs (dats m) 0 (V0 m) [hostOps1] c main_v3 = result m c := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.tc.devRef main_v1) = G m c :=
    (Pipeline.withArrays_arr spec0 launch0.win.arr_inj c _ _ 3).trans (final m c)
  rw [hw]
  unfold result
  refine congrArg (fun v => Host.divf v (constant (F := Ideal) S_ .f32 0x49EA6000#32)) ?_
  funext i
  simp only [Host.reduceAdd, Ideal.hostReduceAdd_def]
  refine (Ideal.hostReduceAdd_total reducesTo_S4x8x128_S_d0_1_2 (fun b => b.elim0) (G m c) _ i).trans ?_
  rw [sum_G]
  show Ideal.ofBits .f32 0x00000000#32 + _ = _
  rw [Ideal.ofBits_zero_f32, zero_add]

/-- THE KERNEL'S RUN, read: the result buffer ends at `result`, the arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference's result.  It forms the scaled combination by a contraction over the three basis functions,
  subtracts it from the data, squares the absolute value, sums over `l` and then over everything else, and divides:
  the total of all squared deviations divided by the same constant.
-/
import proofs.«409956_j40200893891226_3_alg».proof.Proof.Gen.ReferenceIdeal.Read
import proofs.«409956_j40200893891226_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The summed index `l` put back into `(k, c, h, w)` gives `(k, l, c, h, w)`. -/
theorem idx8_eq (k : Fin 16) (c : Fin 3) (h w : Fin 200) (l : Fin 8) : idx_main_v8 (ix4 k c h w) l = ix5 k l c h w :=
  funext fun a => Fin.ext (by
    match a with
    | ⟨0, _⟩ => rfl
    | ⟨1, _⟩ => rfl
    | ⟨2, _⟩ => rfl
    | ⟨3, _⟩ => rfl
    | ⟨4, _⟩ => rfl)

/-- The coefficient the contraction reads at `(k, l, c, h, w)` and basis function `b`. -/
theorem lidx_eq (k : Fin 16) (l : Fin 8) (c : Fin 3) (h w : Fin 200) (b : Fin 3) :
    lidx_main_v0 (idx_main_v3 (idx_main_v4 (ix5 k l c h w))) b = ix3 k l b :=
  funext fun a => Fin.ext (by
    match a with
    | ⟨0, _⟩ => rfl
    | ⟨1, _⟩ => rfl
    | ⟨2, _⟩ => rfl)

/-- The basis value it reads there. -/
theorem ridx_eq (k : Fin 16) (l : Fin 8) (c : Fin 3) (h w : Fin 200) (b : Fin 3) :
    ridx_main_v0 (idx_main_v3 (idx_main_v4 (ix5 k l c h w))) b = ix3 h w b :=
  funext fun a => Fin.ext (by
    match a with
    | ⟨0, _⟩ => rfl
    | ⟨1, _⟩ => rfl
    | ⟨2, _⟩ => rfl)

/-- One summand of the reference: the squared absolute deviation is the squared deviation. -/
theorem term_eq (x0 : (⟨S16x8x3x200x200, .f32⟩ : BufTy).Contents (Elt Ideal)) (x1 : (⟨S16x8x3, .f32⟩ : BufTy).Contents (Elt Ideal))
    (x2 : (⟨S200x200x3, .f32⟩ : BufTy).Contents (Elt Ideal)) (k : Fin 16) (l : Fin 8) (c : Fin 3) (h w : Fin 200) :
    val_main_v7 (F := Ideal) x0 x1 x2 (ix5 k l c h w) = Cert.Mse.sqdev x0 x1 x2 k l c h w := by
  rw [val_main_v7_apply, val_main_v6_apply, val_main_v5_apply, val_main_v4_apply, val_main_v3_apply, val_main_v2_apply,
    val_main_v1_apply, val_main_cst_apply, val_main_v0_apply, Fin.sum_univ_three]
  simp only [lidx_eq, ridx_eq, Ideal.mulf_def, Ideal.subf_def, Ideal.hostAbsf_def, Ideal.absf_def, Ideal.ofBits_def]
  rw [Cert.Mse.abs_mul_abs]
  rfl

/-- THE REFERENCE'S SUM is the total. -/
theorem sum_eq (x0 : (⟨S16x8x3x200x200, .f32⟩ : BufTy).Contents (Elt Ideal)) (x1 : (⟨S16x8x3, .f32⟩ : BufTy).Contents (Elt Ideal))
    (x2 : (⟨S200x200x3, .f32⟩ : BufTy).Contents (Elt Ideal)) :
    val_main_v9 (F := Ideal) x0 x1 x2 = fun _ => Cert.Mse.total x0 x1 x2 := by
  funext i
  have hs : ∑ j : S16x3x200x200.Idx, val_main_v8 (F := Ideal) x0 x1 x2 j = Cert.Mse.total x0 x1 x2 := by
    refine (Cert.LibIdxSums.sum_idx4 _).trans ?_
    rw [← Cert.Mse.ref_total]
    refine Finset.sum_congr rfl fun k _ => Finset.sum_congr rfl fun c _ => Finset.sum_congr rfl fun h _ =>
      Finset.sum_congr rfl fun w _ => ?_
    rw [val_main_v8_apply, val_main_cst_0_apply, Ideal.ofBits_def, Ideal.ofBits_zero_f32, zero_add]
    refine Finset.sum_congr rfl fun l _ => ?_
    rw [idx8_eq, term_eq]
  rw [val_main_v9_apply, hs, val_main_cst_1_apply, Ideal.ofBits_def, Ideal.ofBits_zero_f32, zero_add]

/-- THE REFERENCE'S RESULT: the total divided by the host's constant. -/
theorem result_eq (x0 : (⟨S16x8x3x200x200, .f32⟩ : BufTy).Contents (Elt Ideal)) (x1 : (⟨S16x8x3, .f32⟩ : BufTy).Contents (Elt Ideal))
    (x2 : (⟨S200x200x3, .f32⟩ : BufTy).Contents (Elt Ideal)) :
    val_main_v10 (F := Ideal) x0 x1 x2
      = Host.divf (fun _ => Cert.Mse.total x0 x1 x2) (constant (F := Ideal) S_ .f32 0x49EA6000#32) := by
  unfold val_main_v10
  rw [sum_eq]
  rfl

end Cert.ReferenceIdeal.RefValue

end
-- ==== Proof.lean ====
/-
  The kernel and the reference both return the mean squared deviation of the data `X[k, l, c, h, w]` from the
  scaled combination `5000 · Σ_b B[k, l, b] · A[h, w, b]` of three basis functions: the sum of the squared
  deviations over every `(k, l, c, h, w)` divided by the constant `K · C · H · W = 1920000`.
  The kernel takes four rows `k` per grid step, accumulates their three channels' squared deviations over
  `(l, h, w)`, sums the accumulator and leaves the step's total in the corner of an otherwise zero [8, 128] tile;
  the host adds the four tiles up and divides.  The reference contracts over `b`, squares the absolute value of
  the deviation, sums over `l`, then over the rest, and divides by the same constant.  On the extended reals
  addition is commutative and associative and `|d| · |d| = d · d` for every `d`, the infinities included, so the
  two sums are one (Proof/Spec.lean) and no finiteness of the inputs is used.
  The three frames: the two kernels' are the generated frame runs, the reference's its generated run with the
  result dropped.  The idealization rewrote nothing, so `preserves` is trivial.
-/
import proofs.«409956_j40200893891226_3_alg».proof.Defs
import proofs.«409956_j40200893891226_3_alg».proof.Proof.Gen.Kernel
import proofs.«409956_j40200893891226_3_alg».proof.Proof.Gen.Kernel.Skeleton
import proofs.«409956_j40200893891226_3_alg».proof.Proof.Gen.Kernel.Launch
import proofs.«409956_j40200893891226_3_alg».proof.Proof.Gen.Kernel.Points
import proofs.«409956_j40200893891226_3_alg».proof.Proof.Gen.Kernel.Frame
import proofs.«409956_j40200893891226_3_alg».proof.Proof.Gen.KernelIdeal
import proofs.«409956_j40200893891226_3_alg».proof.Proof.Gen.KernelIdeal.Skeleton
import proofs.«409956_j40200893891226_3_alg».proof.Proof.Gen.KernelIdeal.Launch
import proofs.«409956_j40200893891226_3_alg».proof.Proof.Gen.KernelIdeal.Points
import proofs.«409956_j40200893891226_3_alg».proof.Proof.Gen.KernelIdeal.Frame
import proofs.«409956_j40200893891226_3_alg».proof.Proof.Gen.ReferenceIdeal
import proofs.«409956_j40200893891226_3_alg».proof.Proof.Gen.Pre_finite_inputs
import proofs.«409956_j40200893891226_3_alg».proof.Proof.Gen.ReferenceIdeal.Run
import proofs.«409956_j40200893891226_3_alg».proof.Proof.Gen.ReferenceIdeal.Read
import proofs.«409956_j40200893891226_3_alg».proof.Proof.KernelValue
import proofs.«409956_j40200893891226_3_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree both programs end at the total of the squared deviations divided by the same
    constant. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
